-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x16 : Shape := ⟨2, ![4096, 16]⟩
abbrev S_ : Shape := ⟨0, ![]⟩

class Facts : Prop where

variable [Facts]

def fn {F : FTy → Type} [FloatOps F] (main_arg0 : IVec S4096x16 32) : IVec S_ 1 :=
  let main_c : IVec S_ 1 := constantI S_ 1 1#1
  main_c
-- ==== Kernel.lean ====
abbrev S4096x16 : Shape := ⟨2, ![4096, 16]⟩
abbrev S16 : Shape := ⟨1, ![16]⟩
abbrev S_ : Shape := ⟨0, ![]⟩
abbrev S1x16 : Shape := ⟨2, ![1, 16]⟩
abbrev S4096 : Shape := ⟨1, ![4096]⟩
abbrev S4096x1 : Shape := ⟨2, ![4096, 1]⟩
abbrev S4096x65536 : Shape := ⟨2, ![4096, 65536]⟩
abbrev S1024x1 : Shape := ⟨2, ![1024, 1]⟩
abbrev S1024x4096 : Shape := ⟨2, ![1024, 4096]⟩

abbrev nBuf : Space → Nat
  | .hbm => 109
  | .vmem => 4
  | .smem => 0
  | _ => 0

abbrev bufTy : (tb : Table) → Fin (tcTables nBuf tb) → BufTy
  | .hbm, ⟨0, _⟩ => ⟨S4096x16, .i32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i1⟩
  | .hbm, ⟨15, _⟩ => ⟨S16, .i1⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S16, .i32⟩
  | .hbm, ⟨59, _⟩ => ⟨S_, .i32⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S_, .i32⟩
  | .hbm, ⟨82, _⟩ => ⟨S16, .i32⟩
  | .hbm, ⟨83, _⟩ => ⟨S16, .i1⟩
  | .hbm, ⟨84, _⟩ => ⟨S16, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S_, .i32⟩
  | .hbm, ⟨90, _⟩ => ⟨S16, .i32⟩
  | .hbm, ⟨91, _⟩ => ⟨S16, .i32⟩
  | .hbm, ⟨92, _⟩ => ⟨S16, .i32⟩
  | .hbm, ⟨93, _⟩ => ⟨S16, .i32⟩
  | .hbm, ⟨94, _⟩ => ⟨S_, .i32⟩
  | .hbm, ⟨95, _⟩ => ⟨S16, .i32⟩
  | .hbm, ⟨96, _⟩ => ⟨S16, .i1⟩
  | .hbm, ⟨97, _⟩ => ⟨S16, .i32⟩
  | .hbm, ⟨98, _⟩ => ⟨S_, .i32⟩
  | .hbm, ⟨99, _⟩ => ⟨S_, .i32⟩
  | .hbm, ⟨100, _⟩ => ⟨S16, .i32⟩
  | .hbm, ⟨101, _⟩ => ⟨S16, .i32⟩
  | .hbm, ⟨102, _⟩ => ⟨S1x16, .i32⟩
  | .hbm, ⟨103, _⟩ => ⟨S4096x16, .i32⟩
  | .hbm, ⟨104, _⟩ => ⟨S4096x16, .i32⟩
  | .hbm, ⟨105, _⟩ => ⟨S_, .i32⟩
  | .hbm, ⟨106, _⟩ => ⟨S4096, .i32⟩
  | .hbm, ⟨107, _⟩ => ⟨S4096x1, .i32⟩
  | .hbm, ⟨108, _⟩ => ⟨S4096x65536, .f32⟩
  | .local _ .vmem, ⟨0, _⟩ => ⟨S1024x1, .i32⟩
  | .local _ .vmem, ⟨1, _⟩ => ⟨S1024x1, .i32⟩
  | .local _ .vmem, ⟨2, _⟩ => ⟨S1024x4096, .f32⟩
  | .local _ .vmem, ⟨3, _⟩ => ⟨S1024x4096, .f32⟩
  | _, _ => ⟨S4096x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_c_11 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_c_13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_v32 : Ref sig .tc := ⟨.hbm, 59, rfl⟩
abbrev main_c_14 : Ref sig .tc := ⟨.hbm, 60, rfl⟩
abbrev main_v33 : Ref sig .tc := ⟨.hbm, 61, rfl⟩
abbrev main_v34 : Ref sig .tc := ⟨.hbm, 62, rfl⟩
abbrev main_c_15 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_v40 : Ref sig .tc := ⟨.hbm, 72, rfl⟩
abbrev main_c_16 : Ref sig .tc := ⟨.hbm, 73, rfl⟩
abbrev main_v41 : Ref sig .tc := ⟨.hbm, 74, rfl⟩
abbrev main_v42 : Ref sig .tc := ⟨.hbm, 75, rfl⟩
abbrev main_c_17 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_v48 : Ref sig .tc := ⟨.hbm, 85, rfl⟩
abbrev main_c_18 : Ref sig .tc := ⟨.hbm, 86, rfl⟩
abbrev main_v49 : Ref sig .tc := ⟨.hbm, 87, rfl⟩
abbrev main_v50 : Ref sig .tc := ⟨.hbm, 88, rfl⟩
abbrev main_c_19 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_v55 : Ref sig .tc := ⟨.hbm, 97, rfl⟩
abbrev main_v56 : Ref sig .tc := ⟨.hbm, 98, rfl⟩
abbrev main_c_20 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_21 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  shapeCasts_S4096_S4096x1 : S4096.ShapeCasts S4096x1
  iota_S1024x4096_d1_w32 : S1024x4096.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x4096 : S1024x1.Broadcasts S1024x4096
  inb_S1024x4096_S1024x4096_0_0 : ∀ a, (![0, 0] : Fin 2 → Nat) a + S1024x4096.size a ≤ S1024x4096.size a
  h_S1024x4096 : 0 < S1024x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x65536.size a
  hwx0_1 : ∀ i : grid0.Coords, EltTy.bits .f32 = 32 ∨ (Rect.block (s := S4096x65536) S1024x4096.size (cc0_transform_1 i) (hinb0_1 i)).WholeWords (EltTy.packing .f32)

variable [Facts₀]

abbrev win0_0 : Pipeline.Window sig grid0 :=
  Pipeline.Window.ofSpec (Memref.whole main_v63) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16 : Shape := ⟨2, ![4096, 16]⟩
abbrev S16 : Shape := ⟨1, ![16]⟩
abbrev S_ : Shape := ⟨0, ![]⟩
abbrev S1x16 : Shape := ⟨2, ![1, 16]⟩
abbrev S4096 : Shape := ⟨1, ![4096]⟩
abbrev S4096x1 : Shape := ⟨2, ![4096, 1]⟩
abbrev S1x65536 : Shape := ⟨2, ![1, 65536]⟩
abbrev S4096x65536 : Shape := ⟨2, ![4096, 65536]⟩

abbrev nBuf : Space → Nat
  | .hbm => 113
  | .vmem => 0
  | .smem => 0
  | _ => 0

abbrev bufTy : (tb : Table) → Fin (tcTables nBuf tb) → BufTy
  | .hbm, ⟨0, _⟩ => ⟨S4096x16, .i32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S16, .i1⟩
  | .hbm, ⟨15, _⟩ => ⟨S16, .i1⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S16, .i32⟩
  | .hbm, ⟨46, _⟩ => ⟨S_, .i32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S_, .i32⟩
  | .hbm, ⟨56, _⟩ => ⟨S16, .i32⟩
  | .hbm, ⟨57, _⟩ => ⟨S16, .i1⟩
  | .hbm, ⟨58, _⟩ => ⟨S16, .i32⟩
  | .hbm, ⟨59, _⟩ => ⟨S_, .i32⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i32⟩
  | .hbm, ⟨79, _⟩ => ⟨S16, .i32⟩
  | .hbm, ⟨80, _⟩ => ⟨S16, .i32⟩
  | .hbm, ⟨81, _⟩ => ⟨S_, .i32⟩
  | .hbm, ⟨82, _⟩ => ⟨S16, .i32⟩
  | .hbm, ⟨83, _⟩ => ⟨S16, .i1⟩
  | .hbm, ⟨84, _⟩ => ⟨S16, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i32⟩
  | .hbm, ⟨89, _⟩ => ⟨S_, .i32⟩
  | .hbm, ⟨90, _⟩ => ⟨S16, .i32⟩
  | .hbm, ⟨91, _⟩ => ⟨S16, .i32⟩
  | .hbm, ⟨92, _⟩ => ⟨S16, .i32⟩
  | .hbm, ⟨93, _⟩ => ⟨S16, .i32⟩
  | .hbm, ⟨94, _⟩ => ⟨S_, .i32⟩
  | .hbm, ⟨95, _⟩ => ⟨S16, .i32⟩
  | .hbm, ⟨96, _⟩ => ⟨S16, .i1⟩
  | .hbm, ⟨97, _⟩ => ⟨S16, .i32⟩
  | .hbm, ⟨98, _⟩ => ⟨S_, .i32⟩
  | .hbm, ⟨99, _⟩ => ⟨S_, .i32⟩
  | .hbm, ⟨100, _⟩ => ⟨S16, .i32⟩
  | .hbm, ⟨101, _⟩ => ⟨S16, .i32⟩
  | .hbm, ⟨102, _⟩ => ⟨S1x16, .i32⟩
  | .hbm, ⟨103, _⟩ => ⟨S4096x16, .i32⟩
  | .hbm, ⟨104, _⟩ => ⟨S4096x16, .i32⟩
  | .hbm, ⟨105, _⟩ => ⟨S_, .i32⟩
  | .hbm, ⟨106, _⟩ => ⟨S4096, .i32⟩
  | .hbm, ⟨107, _⟩ => ⟨S4096x1, .i32⟩
  | .hbm, ⟨108, _⟩ => ⟨S1x65536, .i32⟩
  | .hbm, ⟨109, _⟩ => ⟨S4096x65536, .i32⟩
  | .hbm, ⟨110, _⟩ => ⟨S4096x65536, .i32⟩
  | .hbm, ⟨111, _⟩ => ⟨S4096x65536, .i1⟩
  | .hbm, ⟨112, _⟩ => ⟨S4096x65536, .f32⟩
  | _, _ => ⟨S4096x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_c_5 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_c_7 : Ref sig .tc := ⟨.hbm, 24, rfl⟩
abbrev main_v13 : Ref sig .tc := ⟨.hbm, 25, rfl⟩
abbrev main_v14 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_c_11 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_c_12 : Ref sig .tc := ⟨.hbm, 47, rfl⟩
abbrev main_v25 : Ref sig .tc := ⟨.hbm, 48, rfl⟩
abbrev main_v26 : Ref sig .tc := ⟨.hbm, 49, rfl⟩
abbrev main_c_13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_v32 : Ref sig .tc := ⟨.hbm, 59, rfl⟩
abbrev main_c_14 : Ref sig .tc := ⟨.hbm, 60, rfl⟩
abbrev main_v33 : Ref sig .tc := ⟨.hbm, 61, rfl⟩
abbrev main_v34 : Ref sig .tc := ⟨.hbm, 62, rfl⟩
abbrev main_c_15 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_v39 : Ref sig .tc := ⟨.hbm, 71, rfl⟩
abbrev main_v40 : Ref sig .tc := ⟨.hbm, 72, rfl⟩
abbrev main_c_16 : Ref sig .tc := ⟨.hbm, 73, rfl⟩
abbrev main_v41 : Ref sig .tc := ⟨.hbm, 74, rfl⟩
abbrev main_v42 : Ref sig .tc := ⟨.hbm, 75, rfl⟩
abbrev main_c_17 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call5_c : Ref sig .tc := ⟨.hbm, 81, rfl⟩
abbrev main_call5_v0 : Ref sig .tc := ⟨.hbm, 82, rfl⟩
abbrev main_call5_v1 : Ref sig .tc := ⟨.hbm, 83, rfl⟩
abbrev main_v47 : Ref sig .tc := ⟨.hbm, 84, rfl⟩
abbrev main_v48 : Ref sig .tc := ⟨.hbm, 85, rfl⟩
abbrev main_c_18 : Ref sig .tc := ⟨.hbm, 86, rfl⟩
abbrev main_v49 : Ref sig .tc := ⟨.hbm, 87, rfl⟩
abbrev main_v50 : Ref sig .tc := ⟨.hbm, 88, rfl⟩
abbrev main_c_19 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_v55 : Ref sig .tc := ⟨.hbm, 97, rfl⟩
abbrev main_v56 : Ref sig .tc := ⟨.hbm, 98, rfl⟩
abbrev main_c_20 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_21 : Ref sig .tc := ⟨.hbm, 105, rfl⟩
abbrev main_v62 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_v63 : Ref sig .tc := ⟨.hbm, 112, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  bcast_S4096_S4096x1_0 : S4096.BroadcastsInDim S4096x1 (![0] : Fin 1 → Fin S4096x1.rank)
  bcast_S4096x1_S4096x65536_0_1 : S4096x1.BroadcastsInDim S4096x65536 (![0, 1] : Fin 2 → Fin S4096x65536.rank)
  bcast_S1x65536_S4096x65536_0_1 : S1x65536.BroadcastsInDim S4096x65536 (![0, 1] : Fin 2 → Fin S4096x65536.rank)

variable [Facts₀]

class Facts : Prop extends Facts₀ where

variable [Facts]
-- ==== Proof.KernelHost.lean ====
/-
  What the kernel's one region finds in its input array.

  Before the region the program computes, on the host, one 32-bit word per row of the argument `x : i32[4096, 16]`:
      hot r = Σ_k  x[r, k] * w[k]        (32-bit arithmetic, wrapping),
  where the sixteen weights `w[k] = 2 ^ (15 - k)` are themselves computed by operations on constants (an iota, a
  subtraction from 15, and six rounds of square-and-multiply selected by the exponent's bits), and lays the 4096 words
  out as a column `[4096, 1]`. The reference program performs the very same operations, in the same order, before it
  compares; so the column is, entry for entry, the reference's own row-sum stage of the same argument, re-laid.
  Nothing here needs the weights' values: the two programs' terms for the words are one term, and the equation
  is checked by unfolding both, for any float family.
-/
import proofs.«155177_j32890859552772_1_alg».proof.Proof.FrameKernelIdeal
import proofs.«155177_j32890859552772_1_alg».proof.Proof.ReadReferenceIdeal
import Idealize.ShloMosaic.Lib.Pipeline.Value
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen Cert.KernelIdeal.GenP

variable {F : FTy → Type} [FloatOps F]
variable (m : (ℓ : Loc nD τ sig) → Buf (Elt F) ℓ)

/-- The hot word of every row of the argument as launched on core `c`: the reference's row-sum stage of that argument. -/
abbrev hotWords (c : Dev nD) : IVec S4096 32 :=
  Cert.ReferenceIdeal.ReadP.val_main_v62 (F := F) (m ((c : Thread nD τ).loc main_arg0))

set_option maxHeartbeats 4000000 in
/-- The region's input array is the column of hot words: the host operations before the region, read back at the
    column's buffer, compose to the reference's row-sum term of the argument, re-laid `[4096] → [4096, 1]`. -/
theorem V_hot (c : Dev nD) :
    (V m c main_v63 : S4096x1.Idx → BitVec 32) = shapeCast S4096x1 (hotWords m c) shapeCasts_S4096_S4096x1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results_simp
  rfl

end Cert.KernelIdeal.Hand

end
-- ==== Proof.OneHot.lean ====
/-
  One entry of a one-hot row, over the extended reals, and the two word-level spellings of it.

  A row's hot position is given as a 32-bit word `hot` (a sum of sixteen products, taken with wrap-around, so it may be
  any word). Entry `col` of the row is one when the column number, as a 32-bit word, IS that word, and zero otherwise; a
  word that is no column number below the row's length simply names no column, and the row is all zero.

  A kernel that writes the row in tiles of 4096 columns forms the column's word as `lane + tile * 4096` in 32-bit
  arithmetic, compares it with `hot` and selects between the float words of 1.0 and 0.0; a whole-row comparison compares
  `hot` with the column's word and converts the resulting bit to a float, unsigned. At the exact instance both are the
  entry above: the word of a sum (product) of naturals is the sum (product) of the words, the float word `0x3F800000`
  is the real number one and the all-zero word is zero, and the unsigned reading of a single bit is 0 or 1.
-/
import Idealize.ShloMosaic.PureOps.Ideal
import Idealize.ShloMosaic.PureOps.Ideal.Laws
import Idealize.ShloMosaic.Lib.ValueIdx

noncomputable section

namespace Cert.OneHot

open Idealize.ShloMosaic

/-- Entry `col` of the one-hot row whose hot position is the word `hot`. -/
def entry (hot : BitVec 32) (col : Nat) : EReal := if BitVec.ofNat 32 col = hot then 1 else 0

/-- The single-precision word `0x3F800000` (sign 0, biased exponent 127, fraction 0) is the real number one. -/
theorem one_f32 : Ideal.ofBits .f32 0x3F800000#32 = 1 := by
  simp [Ideal.ofBits, Ideal.ieee, -EReal.coe_mul]; norm_num

/-- Column `tile * 4096 + lane` as a word is the lane's word plus the tile's word times 4096: reading a natural as a
    32-bit word respects sums and products (both sides are the number modulo 2 ^ 32). -/
theorem col_word (tile lane : Nat) :
    IntOp.addi (BitVec.ofNat 32 lane) (Scalar.muli (BitVec.ofNat 32 tile) 4096#32) = BitVec.ofNat 32 (tile * 4096 + lane) := by
  show BitVec.ofNat 32 lane + BitVec.ofNat 32 tile * BitVec.ofNat 32 4096 = _
  rw [← BitVec.ofNat_mul, ← BitVec.ofNat_add, Nat.add_comm]

/-- The tiled spelling: compare the column's word, formed in 32-bit arithmetic from the tile and the lane, with the hot
    word, and select 1.0 or 0.0. -/
theorem entry_of_select (hot : BitVec 32) (tile lane : Nat) :
    Scalar.select (IntOp.cmpi .eq (IntOp.addi (BitVec.ofNat 32 lane) (Scalar.muli (BitVec.ofNat 32 tile) 4096#32)) hot)
      (Scalar.ofBits (F := Ideal) .f32 0x3F800000#32) (Scalar.ofBits (F := Ideal) .f32 0x00000000#32) = entry hot (tile * 4096 + lane) := by
  rw [col_word]
  unfold entry Scalar.select IntOp.cmpi
  show (if BitVec.ofBool (BitVec.ofNat 32 (tile * 4096 + lane) == hot) = 1 then Ideal.ofBits .f32 0x3F800000#32 else Ideal.ofBits .f32 0x00000000#32) = _
  rw [one_f32, Ideal.ofBits_zero_f32]
  by_cases h : BitVec.ofNat 32 (tile * 4096 + lane) = hot
  · simp [h]
  · have hb : (BitVec.ofNat 32 (tile * 4096 + lane) == hot) = false := by simpa using h
    rw [hb, if_neg h]
    exact if_neg (by decide)

/-- The whole-row spelling: compare the hot word with the column's word and read the resulting bit as an unsigned
    integer, exactly: 1 where they agree, 0 where they do not. -/
theorem entry_of_convert (hot : BitVec 32) (col : Nat) :
    FloatOps.uitofp (F := Ideal) .f32 (IntOp.cmpi .eq hot (BitVec.ofNat 32 col)) = entry hot col := by
  unfold entry IntOp.cmpi
  show (((BitVec.ofBool (hot == BitVec.ofNat 32 col)).toNat : ℝ) : EReal) = _
  by_cases h : BitVec.ofNat 32 col = hot
  · simp [h]
  · have h' : ¬ hot = BitVec.ofNat 32 col := fun e => h e.symm
    simp [h, h']

end Cert.OneHot

end
-- ==== Proof.KernelValue.lean ====
/-
  The kernel's result array, at the exact instance, is the array of one-hot rows.

  The region runs on a 4 x 16 grid. At point (a, b) it is given rows 1024a … 1024a + 1023 of the column of hot words
  and writes the tile of rows 1024a … and columns 4096b … 4096b + 4095 of the result. Inside the tile, at row p and
  lane q, it compares the word `q + b * 4096` with the hot word of row p and stores 1.0 or 0.0: that is entry
  `b * 4096 + q` of the one-hot row of array row `1024a + p` (`OneHot.entry_of_select`). The 64 tiles cover the
  array, each index lying in the tile of its row's and its column's quotients by 1024 and 4096, so the array ends
  holding, at (r, col), entry `col` of the one-hot row of the hot word of row r.
-/
import proofs.«155177_j32890859552772_1_alg».proof.Proof.ValueKernelIdeal
import proofs.«155177_j32890859552772_1_alg».proof.Proof.KernelHost
import proofs.«155177_j32890859552772_1_alg».proof.Proof.OneHot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.KernelIdeal.ValueP

variable (m : (ℓ : Loc nD τ sig) → Buf (Elt Ideal) ℓ) (ρ : Dev nD → PrngReg)

theorem zero_offsets : (![0, 0] : Fin 2 → Nat) = fun _ => 0 := funext fun a => by fin_cases a <;> rfl

/-! ## One tile -/

/-- What the body stores at row `p`, lane `q` of its tile, at grid point `i`, from the block `x0` of hot words it
    was given: the lane's column in the array is `(i 1) * 4096 + q`, and the stored value is that entry of the one-hot
    row of `x0`'s word at row `p`. The column iota reads the lane, the splat of the tile's offset reads the offset,
    and the column of words, broadcast along the lanes, reads its row. -/
theorem stored_entry (i : grid0.Coords) (x0 : Vec Ideal S1024x1 .i32) (p : Fin 1024) (q : Fin 4096) :
    k0_pay1 (F := Ideal) i x0 (ix2 p q) = Cert.OneHot.entry (x0 (ix2 p 0)) ((i 1).val * 4096 + q.val) := by
  unfold k0_pay1
  dsimp only
  rw [select_apply, broadcast_apply, broadcast_apply]
  have hb : broadcastTo S1024x4096 (shapeCast S1024x1 x0 shapeCasts_S1024x1_S1024x1) broadcasts_S1024x1_S1024x4096 (ix2 p q) = x0 (ix2 p 0) := by
    rw [shapeCast_self]
    refine broadcastTo_apply x0 broadcasts_S1024x1_S1024x4096 (ix2 p q) (ix2 p 0) (fun a => ?_)
    match a with
    | ⟨0, _⟩ => show p.val = if (1024 : Nat) = 1 then 0 else p.val; rw [if_neg (by decide)]
    | ⟨1, _⟩ => show 0 = if (1 : Nat) = 1 then 0 else q.val; rw [if_pos rfl]
  show Scalar.select (IntOp.cmpi .eq (IntOp.addi (iota .tc S1024x4096 32 [1] iota_S1024x4096_d1_w32 (ix2 p q)) (Scalar.muli (BitVec.ofNat 32 (i 1).val) 4096#32))
      (broadcastTo S1024x4096 (shapeCast S1024x1 x0 shapeCasts_S1024x1_S1024x1) broadcasts_S1024x1_S1024x4096 (ix2 p q))) _ _ = _
  rw [hb, iota_single_apply]
  exact Cert.OneHot.entry_of_select _ _ _

/-! ## The array -/

/-- The result array: at (r, col), entry `col` of the one-hot row of row `r`'s hot word. -/
def oneHotRows (c : Dev nD) : S4096x65536.Idx → EReal :=
  fun j => Cert.OneHot.entry (hotWords m c (ix1 (j 0))) (j 1).val

/-- The two windows' block indices over the grid, decided: the input's row block is the output's, its column block is 0,
    and the output's column block is the point's second coordinate. -/
theorem block_indices : ∀ t : Fin cfg0.N, win0_0.index t (0 : Fin 2) = win0_1.index t (0 : Fin 2) ∧ win0_0.index t (1 : Fin 2) = 0
    ∧ win0_1.index t (1 : Fin 2) = (grid0.coords t 1).val ∧ win0_1.index t (0 : Fin 2) ≤ 3 ∧ win0_1.index t (1 : Fin 2) ≤ 15 :=
  (by decide +kernel : ∀ t : Fin grid0.N, _)

/-- Row `p` of the input block at point `t` is the hot word of array row `1024 * (t's row block) + p`: the block is a
    run of 1024 rows of the column, and the column's entry (r, 0) sits at position r of the vector of words. -/
theorem input_row (c : Dev nD) (t : Fin cfg0.N) (p : Fin 1024) (r : Fin 4096) (hr : r.val = win0_0.index t (0 : Fin 2) * 1024 + p.val) :
    (iblk m c 0 t : S1024x1.Idx → BitVec 32) (ix2 p 0) = hotWords m c (ix1 r) := by
  obtain ⟨e0, e1, -, -, -⟩ := block_indices t
  unfold iblk
  rw [View.read_apply]
  show (V m c main_v63 : S4096x1.Idx → BitVec 32) (((cfg0.win 0).blk t).view.emb (ix2 p 0)) = _
  rw [V_hot]
  refine shapeCast_apply _ _ _ (ix1 r) ?_
  rw [Shape.rowMajor_val_one, Shape.rowMajor_val_two]
  show r.val = (win0_0.index t (0 : Fin 2) * 1024 + 1 * p.val) * 1 + (win0_0.index t (1 : Fin 2) * 1 + 1 * 0)
  rw [hr, e1]
  omega

/-- The output block is whole at every point: what is written back at a place of the tile is what the body left there. -/
theorem written_at (X : S1024x4096.Idx → EReal) (t : Fin cfg0.N) (p : Fin 1024) (q : Fin 4096) :
    (cfg0.win 1).cut (grid0.coords t) X (ix2 p q) = X (ix2 p q) := rfl

/-- Tile `t` of an array, read at a place of the tile, is the array at that place's position. -/
theorem tile_at (G : S4096x65536.Idx → EReal) (t : Fin cfg0.N) (p : Fin 1024) (q : Fin 4096) :
    ((cfg0.win 1).blk t).view.read (Elt Ideal) G (ix2 p q) = G (((cfg0.win 1).blk t).view.emb (ix2 p q)) := rfl

/-- What point `t` writes back is tile `t` of the array of one-hot rows: place (p, q) of the tile is array position
    (1024 a + p, 4096 b + q) for the point's block indices (a, b); the body stored there the entry of column
    4096 b + q of the one-hot row of the input block's row p, which is the hot word of array row 1024 a + p. -/
theorem written_tile (c : Dev nD) (t : Fin cfg0.N) :
    (dats m 0 c).flushed 1 t = ((cfg0.win 1).blk t).view.read (Elt Ideal) (oneHotRows m c) := by
  obtain ⟨e0, e1, e2, b0, b1⟩ := block_indices t
  rw [flushed1]
  unfold out0_1
  rw [View.canon_unit_zero zero_offsets]
  simp only [View.ld_unit_zero (S := S1024x1) zero_offsets]
  funext j
  obtain ⟨p, q, rfl⟩ : ∃ (p : Fin 1024) (q : Fin 4096), j = ix2 p q := ⟨j 0, j 1, eq_ix2 j⟩
  refine (written_at _ t p q).trans ?_
  refine Eq.trans ?_ (tile_at (oneHotRows m c) t p q).symm
  refine (stored_entry (grid0.coords t) (iblk m c 0 t) p q).trans ?_
  have hrow : ((((cfg0.win 1).blk t).view.emb (ix2 p q)) 0).val = win0_1.index t (0 : Fin 2) * 1024 + 1 * p.val := rfl
  have hcol : ((((cfg0.win 1).blk t).view.emb (ix2 p q)) 1).val = win0_1.index t (1 : Fin 2) * 4096 + 1 * q.val := rfl
  have hlt : win0_0.index t (0 : Fin 2) * 1024 + p.val < 4096 := by have := p.isLt; omega
  refine (congrArg₂ Cert.OneHot.entry (input_row m c t p ⟨_, hlt⟩ rfl) rfl).trans ?_
  have hr' : (⟨win0_0.index t (0 : Fin 2) * 1024 + p.val, hlt⟩ : Fin 4096) = (((cfg0.win 1).blk t).view.emb (ix2 p q)) 0 :=
    Fin.ext (by rw [hrow]; show win0_0.index t (0 : Fin 2) * 1024 + p.val = _; omega)
  exact congrArg₂ Cert.OneHot.entry (congrArg (fun r => hotWords m c (ix1 r)) hr') (by rw [hcol, e2]; omega)

/-- An index of the array is in tile `t` iff each coordinate is in the tile's range on its axis. -/
theorem mem_tile (t : Fin cfg0.N) (i : S4096x65536.Idx) :
    i ∈ ((cfg0.win 1).blk t).view.set ↔ ∀ a : Fin 2, win0_1.index t a * S1024x4096.size a ≤ (i a).val ∧ (i a).val < win0_1.index t a * S1024x4096.size a + S1024x4096.size a := by
  show i ∈ ((View.whole main_v64).slice (win0_1.rect t)).set ↔ _
  rw [View.set_slice_whole, Rect.mem_set_unit]
  exact Iff.rfl

/-- Every pair of block indices is some point's. -/
theorem tile_of_blocks : ∀ (q0 : Fin 4) (q1 : Fin 16), ∃ t : Fin cfg0.N, win0_1.index t = ![q0.val, q1.val] :=
  (by decide +kernel : ∀ (q0 : Fin 4) (q1 : Fin 16), ∃ t : Fin grid0.N, win0_1.index t = ![q0.val, q1.val])

/-- The tiles cover the array: index (r, col) lies in the tile with block indices (r / 1024, col / 4096). -/
theorem tiles_cover (i : S4096x65536.Idx) : ∃ t : Fin cfg0.N, (cfg0.win 1).flush t = true ∧ i ∈ ((cfg0.win 1).blk t).view.set := by
  have hi0 : (i 0).val < 4096 := (i 0).isLt
  have hi1 : (i 1).val < 65536 := (i 1).isLt
  obtain ⟨t, ht⟩ := tile_of_blocks ⟨(i 0).val / 1024, by omega⟩ ⟨(i 1).val / 4096, by omega⟩
  have q0 : win0_1.index t (0 : Fin 2) = (i 0).val / 1024 := congrFun ht 0
  have q1 : win0_1.index t (1 : Fin 2) = (i 1).val / 4096 := congrFun ht 1
  refine ⟨t, flush0_1 t, ?_⟩
  rw [mem_tile]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 4096 ≤ (i 1).val ∧ (i 1).val < win0_1.index t (1 : Fin 2) * 4096 + 4096; omega

/-- So the result array ends holding the one-hot rows. -/
theorem result_array (c : Dev nD) : (dats m 0 c).arrAt 1 cfg0.N = oneHotRows m c :=
  (dats m 0 c).arrAt_eq_of_cover 1 (oneHotRows m c) (fun t _ => written_tile m c t) tiles_cover

/-- The kernel's run, read: every weakly fair execution terminates with the result array at the one-hot rows of the
    argument's hot words, the argument unchanged. -/
theorem run : θ_run defs (onTc (τ := τ) (main (F := Ideal))) ⟨m, fun _ => 0, ρ⟩ fun r => ∀ c : Dev nD,
      r.2.mem ((c : Thread nD τ).loc main_v64) = oneHotRows m c
      ∧ r.2.mem ((c : Thread nD τ).loc main_arg0) = m ((c : Thread nD τ).loc main_arg0) :=
  (θ_run defs _ _).mono (fun _ h c => ⟨(h c).1.trans (result_array m c), (h c).2⟩) (run_blocks m ρ)

end Cert.KernelIdeal.Hand

end
-- ==== Proof.RefValue.lean ====
/-
  The reference's result array, at the exact instance, is the array of one-hot rows of its own row sums.

  After the row sums the reference lays the words out as a column, broadcasts the column along 65536 columns,
  broadcasts a row of column numbers `0 … 65535` along the 4096 rows, compares the two entry by entry and converts the
  bit to a float, unsigned. At (r, col) the first array reads row r's word and the second reads the word of `col`; the
  converted comparison is entry `col` of the one-hot row of that word (`OneHot.entry_of_convert`).
-/
import proofs.«155177_j32890859552772_1_alg».proof.Proof.ReadReferenceIdeal
import proofs.«155177_j32890859552772_1_alg».proof.Proof.OneHot
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.Hand

open Cert.ReferenceIdeal Cert.ReferenceIdeal.ReadP

/-- The reference's last stage, of an argument `x0`, index by index: the one-hot rows of its row-sum stage of `x0`. -/
theorem rows_eq (x0 : IVec S4096x16 32) :
    (val_main_v63 (F := Ideal) x0 : S4096x65536.Idx → EReal)
      = fun j => Cert.OneHot.entry (val_main_v62 (F := Ideal) x0 (ix1 (j 0))) (j 1).val := by
  funext j
  rw [val_main_v63_apply, val_main_call7_v4_apply, val_main_call7_v2_apply, val_main_call7_v0_apply, val_main_call7_v3_apply,
    val_main_call7_v1_apply]
  have h1 : idx_main_call7_v0 (idx_main_call7_v2 j) = ix1 (j 0) := funext fun a => Fin.ext (by match a with | ⟨0, _⟩ => rfl)
  have h2 : ((idx_main_call7_v3 j) 1).val = (j 1).val := rfl
  rw [h1, h2]
  exact Cert.OneHot.entry_of_convert _ _

end Cert.ReferenceIdeal.Hand

end
-- ==== Proof.lean ====
/-
  A tiled one-hot kernel against `jax.nn.one_hot` of the same index.

  Both programs take `x : i32[4096, 16]` (any words) and first compute, with the same host operations in the same
  order, one 32-bit word per row,  hot r = Σ_k x[r, k] * 2 ^ (15 - k)  in wrapping arithmetic. The result is
  `f32[4096, 65536]` with, at (r, col), 1.0 where the word of `col` is `hot r` and 0.0 elsewhere; a word that is
  the word of no column below 65536 gives a zero row in both programs, so nothing is asked of the input.

  The kernel writes the result in 4 x 16 tiles of 1024 rows by 4096 columns, forming each column's word as
  `lane + tile * 4096` (no wrap below 65536) and selecting between 1.0 and 0.0; the reference compares the words
  of a column iota over all 65536 columns with the row's word and converts the bit. Over the extended reals both are
  `OneHot.entry (hot r) col` (Proof/OneHot.lean); the kernel's array is assembled from its tiles in
  Proof/KernelValue.lean over the column of hot words the region finds (Proof/KernelHost.lean), the reference's is read
  stage by stage in Proof/RefValue.lean. The idealization rewrote nothing, so `preserves` is trivial; the three frames
  are the programs' runs with the results dropped.
-/
import proofs.«155177_j32890859552772_1_alg».proof.Defs
import proofs.«155177_j32890859552772_1_alg».proof.Proof.Gen.Kernel
import proofs.«155177_j32890859552772_1_alg».proof.Proof.FrameKernel
import proofs.«155177_j32890859552772_1_alg».proof.Proof.Gen.KernelIdeal
import proofs.«155177_j32890859552772_1_alg».proof.Proof.KernelValue
import proofs.«155177_j32890859552772_1_alg».proof.Proof.Gen.ReferenceIdeal
import proofs.«155177_j32890859552772_1_alg».proof.Proof.Gen.Pre_any_inputs
import proofs.«155177_j32890859552772_1_alg».proof.Proof.RefValue
import Idealize.ShloMosaic.Adequacy
import Idealize.ShloMosaic.Init

noncomputable section

namespace Cert.Proof

open Idealize.ShloMosaic Idealize.SL.Sem

namespace Claims

/-- The kernel as printed runs to the end and leaves its argument alone. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the argument, the kernel's array ends at the one-hot rows of the argument's hot words
    (`Hand.run`), and the reference's at its last stage of the same argument, which is the same array index by index
    (`Hand.rows_eq`): the hot words on the kernel's side ARE the reference's row-sum stage. -/
theorem algebraic : Cert.algebraic_KernelIdeal_ReferenceIdeal := by
  intro m ρ m' ρ' _ hagree
  refine ⟨fun c => Cert.KernelIdeal.Hand.oneHotRows m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v63_eq, hagree c]
  exact Cert.ReferenceIdeal.Hand.rows_eq _

end Claims

theorem claim : Cert.Claim :=
  ⟨Cert.Kernel.Gen.facts, Cert.KernelIdeal.Gen.facts, Cert.ReferenceIdeal.Gen.facts, Cert.Pre_any_inputs.Gen.facts,
    Claims.frame_kernel, Claims.frame_kernel_ideal, Claims.frame_reference, Claims.preserves, Claims.algebraic⟩

end Cert.Proof

end
